-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x10000 : Shape := ⟨2, ![16384, 10000]⟩
abbrev S10000x64 : Shape := ⟨2, ![10000, 64]⟩
abbrev S_ : Shape := ⟨0, ![]⟩

class Facts : Prop where
  bcast_S_S10000x64 : S_.BroadcastsInDim S10000x64 (![] : Fin 0 → Fin S10000x64.rank)
  reducesTo_S10000x64_S_d0_1 : S10000x64.ReducesTo [0, 1] S_
  h_S_ : 0 < S_.numel

variable [Facts]

def fn {F : FTy → Type} [FloatOps F] (main_arg0 : IVec S16384x10000 32) (main_arg1 : FVec F S10000x64 .f32) : IVec S_ 1 :=
  let main_v0 : FVec F S10000x64 .f32 := Host.absf main_arg1
  let main_cst : FVec F S_ .f32 := constant S_ .f32 0x7F800000#32
  let main_v1 : FVec F S10000x64 .f32 := broadcastInDim S10000x64 ![] bcast_S_S10000x64 main_cst
  let main_v2 : IVec S10000x64 1 := cmpf .olt main_v0 main_v1
  let main_c : IVec S_ 1 := constantI S_ 1 1#1
  let main_v3 : IVec S_ 1 := (fun x v => Host.reduce IntOp.andi x v reducesTo_S10000x64_S_d0_1 h_S_) main_v2 main_c
  main_v3
-- ==== Kernel.lean ====
abbrev S16384x10000 : Shape := ⟨2, ![16384, 10000]⟩
abbrev S10000x64 : Shape := ⟨2, ![10000, 64]⟩
abbrev S_ : Shape := ⟨0, ![]⟩
abbrev S10000x128 : Shape := ⟨2, ![10000, 128]⟩
abbrev S16384x128 : Shape := ⟨2, ![16384, 128]⟩
abbrev S16384x64 : Shape := ⟨2, ![16384, 64]⟩
abbrev S256x10000 : Shape := ⟨2, ![256, 10000]⟩
abbrev S256x128 : Shape := ⟨2, ![256, 128]⟩

abbrev nBuf : Space → Nat
  | .hbm => 8
  | .vmem => 5
  | .smem => 0
  | _ => 0

abbrev bufTy : (tb : Table) → Fin (tcTables nBuf tb) → BufTy
  | .hbm, ⟨0, _⟩ => ⟨S16384x10000, .i32⟩
  | .hbm, ⟨1, _⟩ => ⟨S10000x64, .f32⟩
  | .hbm, ⟨2, _⟩ => ⟨S_, .i32⟩
  | .hbm, ⟨3, _⟩ => ⟨S_, .f32⟩
  | .hbm, ⟨4, _⟩ => ⟨S10000x128, .f32⟩
  | .hbm, ⟨5, _⟩ => ⟨S10000x128, .bf16⟩
  | .hbm, ⟨6, _⟩ => ⟨S16384x128, .f32⟩
  | .hbm, ⟨7, _⟩ => ⟨S16384x64, .f32⟩
  | .local _ .vmem, ⟨0, _⟩ => ⟨S256x10000, .i32⟩
  | .local _ .vmem, ⟨1, _⟩ => ⟨S256x10000, .i32⟩
  | .local _ .vmem, ⟨2, _⟩ => ⟨S10000x128, .bf16⟩
  | .local _ .vmem, ⟨3, _⟩ => ⟨S256x128, .f32⟩
  | .local _ .vmem, ⟨4, _⟩ => ⟨S256x128, .f32⟩
  | _, _ => ⟨S16384x10000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_call0_v0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x10000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S10000x64_S10000x128_000_0640 : S10000x64.Pads (![0, 0] : Fin 2 → Nat) ![0, 64] ![0, 0] S10000x128
  h_S_ : 0 < S_.numel
  bitsLt_bf16_f32 : FTy.bits .bf16 < FTy.bits .f32
  slices_S16384x128_S16384x64_0_0 : S16384x128.Slices ![0, 0] S16384x64
  inb_S256x10000_S256x10000_0_0 : ∀ a, (![0, 0] : Fin 2 → Nat) a + S256x10000.size a ≤ S256x10000.size a
  h_S256x10000 : 0 < S256x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S256x128_S256x128_0_0 : ∀ a, (![0, 0] : Fin 2 → Nat) a + S256x128.size a ≤ S256x128.size a
  h_S256x128 : 0 < S256x128.numel
  dot_S256x10000_S10000x128_S256x128_1_0_0_1_n_n_wf : DotDims.WF S256x10000 S10000x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10000.size a ≤ S16384x10000.size a
  hwx0_0 : ∀ i : grid0.Coords, EltTy.bits .i32 = 32 ∨ (Rect.block (s := S16384x10000) S256x10000.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S16384x128.size a
  hwx0_2 : ∀ i : grid0.Coords, EltTy.bits .f32 = 32 ∨ (Rect.block (s := S16384x128) S256x128.size (cc0_transform_2 i) (hinb0_2 i)).WholeWords (EltTy.packing .f32)

variable [Facts₀]

def dot_S256x10000_S10000x128_S256x128_1_0_0_1_n_n : DotDims S256x10000 S10000x128 S256x128 where
  lhsContracting := [1]
  rhsContracting := [0]
  lhsNonContracting := [0]
  rhsNonContracting := [1]
  lhsBatch := []
  rhsBatch := []
  wf := dot_S256x10000_S10000x128_S256x128_1_0_0_1_n_n_wf

abbrev win0_0 : Pipeline.Window sig grid0 :=
  Pipeline.Window.ofSpec (Memref.whole main_arg0) S256x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x10000 : Shape := ⟨2, ![16384, 10000]⟩
abbrev S10000x64 : Shape := ⟨2, ![10000, 64]⟩
abbrev S16384x64 : Shape := ⟨2, ![16384, 64]⟩

abbrev nBuf : Space → Nat
  | .hbm => 4
  | .vmem => 0
  | .smem => 0
  | _ => 0

abbrev bufTy : (tb : Table) → Fin (tcTables nBuf tb) → BufTy
  | .hbm, ⟨0, _⟩ => ⟨S16384x10000, .i32⟩
  | .hbm, ⟨1, _⟩ => ⟨S10000x64, .f32⟩
  | .hbm, ⟨2, _⟩ => ⟨S16384x10000, .f32⟩
  | .hbm, ⟨3, _⟩ => ⟨S16384x64, .f32⟩
  | _, _ => ⟨S16384x10000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S16384x10000_S10000x64_S16384x64_1_0_0_1_n_n_wf : DotDims.WF S16384x10000 S10000x64 S16384x64 [1] [0] [0] [1] [] []

variable [Facts₀]

def dot_S16384x10000_S10000x64_S16384x64_1_0_0_1_n_n : DotDims S16384x10000 S10000x64 S16384x64 where
  lhsContracting := [1]
  rhsContracting := [0]
  lhsNonContracting := [0]
  rhsNonContracting := [1]
  lhsBatch := []
  rhsBatch := []
  wf := dot_S16384x10000_S10000x64_S16384x64_1_0_0_1_n_n_wf

class Facts : Prop extends Facts₀ where

variable [Facts]
-- ==== Proof.BagSum.lean ====
/-
  The mathematics both programs compute. A batch of 16384 rows of integer weights over 10000 features, times a
  table of 10000 rows: entry (r, j) of the product is the sum over the features k of the weight (r, k), read as the
  exact integer it denotes, times the table's entry (k, j). The extended reals are used only through + and ·, and
  the two programs add the same products, so no finiteness is needed anywhere.

  `bagSum` states that sum for any number of rows and any table width: the kernel forms it per block of 256 rows over
  a table widened to 128 columns, the reference over the whole batch and the table's own 64 columns.
-/
import Idealize.ShloMosaic.PureOps.Ideal
import Idealize.ShloMosaic.Lib.ValueIdx

noncomputable section

open scoped BigOperators

namespace BagSum

open Idealize.ShloMosaic Idealize.ShloMosaic.ValueIdx

/-- Entry (r, j) of "weights times table": the sum over the 10000 features `k` of the integer weight at (r, k) times the
    table's entry at (k, j). -/
def bagSum {R D : Nat} (wts : (⟨2, ![R, 10000]⟩ : Shape).Idx → BitVec 32) (tab : (⟨2, ![10000, D]⟩ : Shape).Idx → EReal) :
    (⟨2, ![R, D]⟩ : Shape).Idx → EReal :=
  fun i => ∑ k : Fin 10000, (((wts (ix2 (i 0) k)).toInt : ℝ) : EReal) * tab (ix2 k (i 1))

/-- The sum at coordinates. -/
theorem bagSum_ix2 {R D : Nat} (wts : (⟨2, ![R, 10000]⟩ : Shape).Idx → BitVec 32) (tab : (⟨2, ![10000, D]⟩ : Shape).Idx → EReal)
    (r : Fin R) (j : Fin D) :
    bagSum wts tab (ix2 r j) = ∑ k : Fin 10000, (((wts (ix2 r k)).toInt : ℝ) : EReal) * tab (ix2 k j) := rfl

/-- Entry (r, j) depends on row r of the weights and column j of the table only: two weight arrays that agree on the
    row, and two tables that agree on the column, give the same entry. -/
theorem bagSum_congr {R R' D D' : Nat} (wts : (⟨2, ![R, 10000]⟩ : Shape).Idx → BitVec 32) (wts' : (⟨2, ![R', 10000]⟩ : Shape).Idx → BitVec 32)
    (tab : (⟨2, ![10000, D]⟩ : Shape).Idx → EReal) (tab' : (⟨2, ![10000, D']⟩ : Shape).Idx → EReal)
    (r : Fin R) (r' : Fin R') (j : Fin D) (j' : Fin D')
    (hw : ∀ k : Fin 10000, wts (ix2 r k) = wts' (ix2 r' k)) (ht : ∀ k : Fin 10000, tab (ix2 k j) = tab' (ix2 k j')) :
    bagSum wts tab (ix2 r j) = bagSum wts' tab' (ix2 r' j') := by
  rw [bagSum_ix2, bagSum_ix2]
  exact Finset.sum_congr rfl fun k _ => by rw [hw k, ht k]

/-- The same, at any two indices: entry `j` of one product and entry `i` of another agree when row `j 0` of the first
    weights is row `i 0` of the second, and column `j 1` of the first table is column `i 1` of the second. -/
theorem bagSum_eq_at {R R' D D' : Nat} (wts : (⟨2, ![R, 10000]⟩ : Shape).Idx → BitVec 32) (wts' : (⟨2, ![R', 10000]⟩ : Shape).Idx → BitVec 32)
    (tab : (⟨2, ![10000, D]⟩ : Shape).Idx → EReal) (tab' : (⟨2, ![10000, D']⟩ : Shape).Idx → EReal)
    (j : (⟨2, ![R, D]⟩ : Shape).Idx) (i : (⟨2, ![R', D']⟩ : Shape).Idx)
    (hw : ∀ k : Fin 10000, wts (ix2 (j 0) k) = wts' (ix2 (i 0) k)) (ht : ∀ k : Fin 10000, tab (ix2 k (j 1)) = tab' (ix2 k (i 1))) :
    bagSum wts tab j = bagSum wts' tab' i := by
  unfold bagSum
  exact Finset.sum_congr rfl fun k _ => by rw [hw k, ht k]

end BagSum

end
-- ==== Proof.RefBag.lean ====
/-
  The reference's result is the bag sum of its two arguments: it converts the integer weights to floats (at the
  extended reals: the integers themselves) and contracts the feature axis against the table, which entry by entry is
  the sum over the features of weight times table entry.
-/
import proofs.«412433_j81054622810391_3_alg».proof.Proof.Gen.ReferenceIdeal.Read
import proofs.«412433_j81054622810391_3_alg».proof.Proof.BagSum

noncomputable section

open scoped BigOperators

namespace Cert.ReferenceIdeal.RefBag

open Cert.ReferenceIdeal Idealize.ShloMosaic Idealize.ShloMosaic.ValueIdx

/-- The left operand of the contraction is read at (row of the output index, k). -/
theorem lidx_eq (i : S16384x64.Idx) (k : Fin 10000) : Read.lidx_main_v1 i k = ix2 (i 0) k :=
  funext fun a => by match a with | ⟨0, _⟩ => rfl | ⟨1, _⟩ => rfl

/-- The right operand is read at (k, column of the output index). -/
theorem ridx_eq (i : S16384x64.Idx) (k : Fin 10000) : Read.ridx_main_v1 i k = ix2 k (i 1) :=
  funext fun a => by match a with | ⟨0, _⟩ => rfl | ⟨1, _⟩ => rfl

/-- The reference's matrix product of the converted weights with the table is the bag sum. -/
theorem ref_eq (x0 : (⟨S16384x10000, .i32⟩ : BufTy).Contents (Elt Ideal)) (x1 : (⟨S10000x64, .f32⟩ : BufTy).Contents (Elt Ideal)) :
    Read.val_main_v1 (F := Ideal) x0 x1 = BagSum.bagSum x0 x1 := by
  funext i
  rw [Read.val_main_v1_apply]
  unfold BagSum.bagSum
  refine Finset.sum_congr rfl fun k _ => ?_
  rw [Read.val_main_v0_apply, lidx_eq, ridx_eq]
  rfl

end Cert.ReferenceIdeal.RefBag

end
-- ==== Proof.BlockBag.lean ====
/-
  What the kernel body stores at one grid point: the block of 256 weight rows, converted to floats (at the extended
  reals: the integers themselves), times the whole widened table of 128 columns, accumulated into zero. Entry by entry
  that is the bag sum of the block with the table.
-/
import proofs.«412433_j81054622810391_3_alg».proof.Proof.Gen.KernelIdeal.Skeleton
import proofs.«412433_j81054622810391_3_alg».proof.Proof.BagSum
import Idealize.ShloMosaic.Lib.ValueIdx
import Idealize.ShloMosaic.Lib.Pipeline.Value
import Idealize.ShloMosaic.PureOps.Ideal.Laws

noncomputable section

open scoped BigOperators

namespace Cert.KernelIdeal.BlockBag

open Cert.KernelIdeal Cert.KernelIdeal.Gen Idealize.ShloMosaic Idealize.ShloMosaic.ValueIdx

/-! The product's dimension numbers contract axis 1 of the weights with axis 0 of the table: at output index `i` and
    contraction index `q` the weights are read at (i 0, q) and the table at (q, i 1). -/

theorem lhs_blk_0 (i : S256x128.Idx) (q : dot_S256x10000_S10000x128_S256x128_1_0_0_1_n_n.contr.Idx) :
    (dot_S256x10000_S10000x128_S256x128_1_0_0_1_n_n.lhsIdx i q 0).val = (i 0).val := by
  unfold DotDims.lhsIdx
  rw [dif_neg (show ¬(0 : Fin S256x10000.rank) ∈ dot_S256x10000_S10000x128_S256x128_1_0_0_1_n_n.lhsBatch by decide), dif_pos (show (0 : Fin S256x10000.rank) ∈ dot_S256x10000_S10000x128_S256x128_1_0_0_1_n_n.lhsNonContracting by decide)]
  rfl
theorem lhs_blk_1 (i : S256x128.Idx) (q : dot_S256x10000_S10000x128_S256x128_1_0_0_1_n_n.contr.Idx) :
    (dot_S256x10000_S10000x128_S256x128_1_0_0_1_n_n.lhsIdx i q 1).val = (q ⟨0, by decide⟩).val :=
  dot_S256x10000_S10000x128_S256x128_1_0_0_1_n_n.lhsIdx_val_of_single rfl i q
theorem rhs_blk_0 (i : S256x128.Idx) (q : dot_S256x10000_S10000x128_S256x128_1_0_0_1_n_n.contr.Idx) :
    (dot_S256x10000_S10000x128_S256x128_1_0_0_1_n_n.rhsIdx i q 0).val = (q ⟨0, by decide⟩).val :=
  dot_S256x10000_S10000x128_S256x128_1_0_0_1_n_n.rhsIdx_val_of_single rfl i q
theorem rhs_blk_1 (i : S256x128.Idx) (q : dot_S256x10000_S10000x128_S256x128_1_0_0_1_n_n.contr.Idx) :
    (dot_S256x10000_S10000x128_S256x128_1_0_0_1_n_n.rhsIdx i q 1).val = (i 1).val := by
  unfold DotDims.rhsIdx
  rw [dif_neg (show ¬(1 : Fin S10000x128.rank) ∈ dot_S256x10000_S10000x128_S256x128_1_0_0_1_n_n.rhsBatch by decide), dif_pos (show (1 : Fin S10000x128.rank) ∈ dot_S256x10000_S10000x128_S256x128_1_0_0_1_n_n.rhsNonContracting by decide)]
  rfl

/-- The stored block is the bag sum of the loaded weight block with the loaded table. -/
theorem pay_eq (x0 : Vec Ideal S256x10000 .i32) (x1 : Vec Ideal S10000x128 .bf16) :
    k0_pay1 (F := Ideal) x0 x1 = BagSum.bagSum x0 x1 := by
  funext i
  unfold k0_pay1
  rw [shapeCast_self]
  refine (Ideal.matmul_constant_zero_apply dot_S256x10000_S10000x128_S256x128_1_0_0_1_n_n none (sitofp (F := Ideal) .bf16 x0) (x1 : FVec Ideal S10000x128 .bf16) i).trans ?_
  rw [← Equiv.sum_comp (contrEquiv1 dot_S256x10000_S10000x128_S256x128_1_0_0_1_n_n 10000 rfl rfl).symm]
  unfold BagSum.bagSum
  refine Finset.sum_congr rfl fun k _ => ?_
  have hk := contrEquiv1_symm_val dot_S256x10000_S10000x128_S256x128_1_0_0_1_n_n 10000 rfl rfl k
  have el : dot_S256x10000_S10000x128_S256x128_1_0_0_1_n_n.lhsIdx i ((contrEquiv1 dot_S256x10000_S10000x128_S256x128_1_0_0_1_n_n 10000 rfl rfl).symm k) = ix2 (i 0) k := funext fun a => Fin.ext (by
    match a with
    | ⟨0, _⟩ => exact lhs_blk_0 _ _
    | ⟨1, _⟩ => exact (lhs_blk_1 _ _).trans hk)
  have er : dot_S256x10000_S10000x128_S256x128_1_0_0_1_n_n.rhsIdx i ((contrEquiv1 dot_S256x10000_S10000x128_S256x128_1_0_0_1_n_n 10000 rfl rfl).symm k) = ix2 k (i 1) := funext fun a => Fin.ext (by
    match a with
    | ⟨0, _⟩ => exact (rhs_blk_0 _ _).trans hk
    | ⟨1, _⟩ => exact rhs_blk_1 _ _)
  rw [el, er]
  rfl

end Cert.KernelIdeal.BlockBag

end
-- ==== Proof.ArrayBag.lean ====
/-
  From blocks to the array. Grid point t loads rows 256·t … 256·t + 255 of the weights and the whole widened table,
  and writes back rows 256·t … 256·t + 255 of the padded output. The block it writes is the bag sum of the block it
  loaded, and an entry of a bag sum depends on its own weight row and its own table column only; so the written block is
  the same rows of ONE array, the bag sum of all the weights with the widened table. The 64 points' blocks tile the 16384
  rows, so after the run the padded output is that array.
-/
import proofs.«412433_j81054622810391_3_alg».proof.Proof.Gen.KernelIdeal.Frame
import proofs.«412433_j81054622810391_3_alg».proof.Proof.BlockBag
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.ArrayBag

open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- The block indices, decided over the 64 points: the weights' and the output's blocks are block row t, column block 0;
    the table's block is the whole table. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The padded output as one function of the arrays the region finds: all the weights times the widened table. -/
abbrev padded (c : Dev nD) : S16384x128.Idx → EReal :=
  BagSum.bagSum (V m c main_arg0 : S16384x10000.Idx → BitVec 32) (V m c main_call0_v1 : S10000x128.Idx → EReal)

/-- What point `t` writes back is block `t` of `padded`. -/
theorem flushed_eq (c : Dev nD) (t : Fin cfg0.N) :
    (dats m 0 c).flushed 2 t = ((cfg0.win 2).blk t).view.read (Elt Ideal) (padded m c) := by
  show (cfg0.win 2).cut (grid0.coords t) ((dats m 0 c).after 2 t) = _
  rw [after0_2]
  unfold out0_2
  rw [View.canon_unit_zero hz]
  simp only [View.ld_unit_zero (S := S256x10000) hz, View.ld_unit_zero (S := S10000x128) hz]
  rw [BlockBag.pay_eq]
  obtain ⟨e0, e1, e2, e3, e4, e5⟩ := idx_facts t
  funext j
  show BagSum.bagSum (iblk m c 0 t : S256x10000.Idx → BitVec 32) (iblk m c 1 t : S10000x128.Idx → EReal) j
    = padded m c (((cfg0.win 2).blk t).view.emb j)
  refine BagSum.bagSum_eq_at _ _ _ _ _ _ (fun k => ?_) (fun k => ?_)
  · show V m c main_arg0 (((cfg0.win 0).blk t).view.emb (ix2 (j 0) k)) = V m c main_arg0 (ix2 ((((cfg0.win 2).blk t).view.emb j) 0) k)
    refine congrArg (V m c main_arg0) (funext fun a => Fin.ext ?_)
    match a with
    | ⟨0, _⟩ => show win0_0.index t (0 : Fin 2) * 256 + 1 * (j 0).val = win0_2.index t (0 : Fin 2) * 256 + 1 * (j 0).val; omega
    | ⟨1, _⟩ => show win0_0.index t (1 : Fin 2) * 10000 + 1 * k.val = k.val; omega
  · show V m c main_call0_v1 (((cfg0.win 1).blk t).view.emb (ix2 k (j 1))) = V m c main_call0_v1 (ix2 k ((((cfg0.win 2).blk t).view.emb j) 1))
    refine congrArg (V m c main_call0_v1) (funext fun a => Fin.ext ?_)
    match a with
    | ⟨0, _⟩ => show win0_1.index t (0 : Fin 2) * 10000 + 1 * k.val = k.val; omega
    | ⟨1, _⟩ => show win0_1.index t (1 : Fin 2) * 128 + 1 * (j 1).val = win0_2.index t (1 : Fin 2) * 128 + 1 * (j 1).val; omega

/-- An index of the padded output is in point `t`'s block iff each coordinate is in the block's range on its axis. -/
theorem mem_blk (t : Fin cfg0.N) (i : S16384x128.Idx) :
    i ∈ ((cfg0.win 2).blk t).view.set ↔ ∀ a : Fin 2, win0_2.index t a * S256x128.size a ≤ (i a).val ∧ (i a).val < win0_2.index t a * S256x128.size a + S256x128.size a := by
  show i ∈ ((View.whole main_call0_v2).slice (win0_2.rect t)).set ↔ _
  rw [View.set_slice_whole, Rect.mem_set_unit]
  exact Iff.rfl

/-- Row r of the padded output is written back by point r / 256. -/
theorem cover (i : S16384x128.Idx) : ∃ t : Fin cfg0.N, (cfg0.win 2).flush t = true ∧ i ∈ ((cfg0.win 2).blk t).view.set := by
  have hi0 : (i 0).val < 16384 := (i 0).isLt
  have hi1 : (i 1).val < 128 := (i 1).isLt
  have hN : cfg0.N = 64 := N_0
  let t : Fin cfg0.N := ⟨(i 0).val / 256, by rw [hN]; omega⟩
  obtain ⟨e0, e1, e2, e3, e4, e5⟩ := idx_facts t
  have ht : t.val = (i 0).val / 256 := rfl
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 128 ≤ (i 1).val ∧ (i 1).val < win0_2.index t (1 : Fin 2) * 128 + 128; omega

/-- The padded output after the run. -/
theorem final (c : Dev nD) : (dats m 0 c).arrAt 2 cfg0.N = padded m c :=
  (dats m 0 c).arrAt_eq_of_cover 2 (padded m c) (fun t _ => flushed_eq m c t) cover

end Cert.KernelIdeal.ArrayBag

end
-- ==== Proof.HostEnds.lean ====
/-
  The host lines around the kernel. Before it the table is widened from 64 to 128 columns with zeros and changes float
  format, which at the extended reals changes nothing: column j < 64 of the widened table is column j of the table.
  After it the padded output's first 64 columns are cut out. Entry (r, j), j < 64, of the result is therefore the bag sum of
  weight row r with column j of the widened table, which is column j of the table itself: the result is the bag sum
  of the two arguments. The 64 zero columns never enter it.
-/
import proofs.«412433_j81054622810391_3_alg».proof.Proof.ArrayBag
import Idealize.ShloMosaic.Lib.StableHlo.Run
import Idealize.ShloMosaic.Lib.ValueLayout
import Idealize.ShloMosaic.Lib.KernelVsHost

noncomputable section

open Idealize.ShloMosaic Idealize.ShloMosaic.TcCoe Idealize.SL.Sem Idealize.ShloMosaic.ValueIdx
open Idealize.ShloMosaic.Pipeline (Dat)

namespace Cert.KernelIdeal.HostEnds

open Cert.KernelIdeal Cert.KernelIdeal.Gen

variable (m : (ℓ : Loc nD τ sig) → Buf (Elt Ideal) ℓ)

/-- The table the region finds: the argument widened by 64 columns of the converted integer zero, then narrowed in
    float format. -/
theorem table_eq (c : Dev nD) : (V m c main_call0_v1 : S10000x128.Idx → EReal)
    = truncf .bf16 (pad S10000x128 ![0, 0] ![0, 64] ![0, 0] (m ((c : Thread nD τ).loc main_arg1) : S10000x64.Idx → EReal)
        (sitofp (F := Ideal) .f32 (constantI S_ 32 0#32)) pads_S10000x64_S10000x128_000_0640 h_S_) bitsLt_bf16_f32 := by
  show StableHlo.after hostOps0 (fun b => m (c, b)) (Proc.devRef .tc main_call0_v1) = _
  after_results
  rfl

/-- Column j < 64 of the widened table is column j of the table. -/
theorem table_apply (c : Dev nD) (k : Fin 10000) (j : Fin 64) (j' : Fin 128) (hj : j'.val = j.val) :
    (V m c main_call0_v1 : S10000x128.Idx → EReal) (ix2 k j') = (m ((c : Thread nD τ).loc main_arg1) : S10000x64.Idx → EReal) (ix2 k j) := by
  rw [table_eq]
  show pad S10000x128 ![0, 0] ![0, 64] ![0, 0] (m ((c : Thread nD τ).loc main_arg1) : S10000x64.Idx → EReal)
      (sitofp (F := Ideal) .f32 (constantI S_ 32 0#32)) pads_S10000x64_S10000x128_000_0640 h_S_ (ix2 k j') = _
  refine pad_apply_of_inside _ _ _ _ _ _ _ (ix2 k j') (ix2 k j) (fun a => ?_)
  match a with
  | ⟨0, _⟩ => show k.val = 0 + k.val * (0 + 1); omega
  | ⟨1, _⟩ => show j'.val = 0 + j.val * (0 + 1); omega

/-- The result buffer after the host line that follows the kernel: the first 64 columns of the padded output. -/
theorem result_eq (c : Dev nD) : (Pipeline.afterTail₀ cfgs (dats m) 0 (V0 m) [hostOps1] c main_v0 : S16384x64.Idx → EReal)
    = extractStridedSlice S16384x64 ![0, 0] ((dats m 0 c).arrAt 2 cfg0.N : S16384x128.Idx → EReal) slices_S16384x128_S16384x64_0_0 := by
  unfold Pipeline.afterTail₀
  show StableHlo.after hostOps1 _ (Proc.devRef .tc main_v0) = _
  after_results
  show extractStridedSlice S16384x64 ![0, 0]
      (Pipeline.withArrays spec0 c (V0 m c) (fun w => (dats m 0 c).arrAt w cfg0.N) (Proc.devRef .tc (Pipeline.arrRef spec0 2)) : S16384x128.Idx → EReal)
      slices_S16384x128_S16384x64_0_0 = _
  rw [Pipeline.withArrays_arr spec0 launch0.win.arr_inj c (V0 m c) (fun w => (dats m 0 c).arrAt w cfg0.N) 2]

/-- The result buffer is the bag sum of the two arguments. -/
theorem result_bag (c : Dev nD) : (Pipeline.afterTail₀ cfgs (dats m) 0 (V0 m) [hostOps1] c main_v0 : S16384x64.Idx → EReal)
    = BagSum.bagSum (m ((c : Thread nD τ).loc main_arg0) : S16384x10000.Idx → BitVec 32) (m ((c : Thread nD τ).loc main_arg1) : S10000x64.Idx → EReal) := by
  rw [result_eq, ArrayBag.final]
  funext i
  obtain ⟨r, j, rfl⟩ : ∃ (r : Fin 16384) (j : Fin 64), i = ix2 r j := ⟨i 0, i 1, eq_ix2 i⟩
  have hj : j.val < 128 := by have := j.isLt; omega
  rw [slice2_axis1_apply 0 (ArrayBag.padded m c) slices_S16384x128_S16384x64_0_0 r j ⟨j.val, hj⟩ (Nat.zero_add _).symm]
  exact BagSum.bagSum_congr _ _ _ _ r r ⟨j.val, hj⟩ j (fun k => by rw [V_main_arg0]) (fun k => table_apply m c k j ⟨j.val, hj⟩ rfl)

end Cert.KernelIdeal.HostEnds

end
-- ==== Proof.KernelRun.lean ====
/-
  The idealized kernel's run with its result named: every execution ends with the result buffer at the bag sum of the two
  arguments and the arguments as they were. The result is a buffer the kernel's windows do not stage, so the run states it
  as what the host line after the kernel leaves there; each argument ends as launched.
-/
import proofs.«412433_j81054622810391_3_alg».proof.Proof.HostEnds

noncomputable section

open Idealize.ShloMosaic Idealize.ShloMosaic.TcCoe Idealize.SL.Sem
open Idealize.ShloMosaic.Pipeline (Dat)

namespace Cert.KernelIdeal.KernelRun

open Cert.KernelIdeal Cert.KernelIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v0)
        = BagSum.bagSum (m ((c.tc : Thread nD τ).loc main_arg0) : S16384x10000.Idx → BitVec 32) (m ((c.tc : Thread nD τ).loc main_arg1) : S10000x64.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (Pipeline.mem_restRefs_of main_v0 (by decide) (by decide))).trans (HostEnds.result_bag m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KernelRun

end
-- ==== Proof.lean ====
/-
  Multi-hot embedding: a batch of 16384 rows of integer weights over 10000 features, times a table of 10000 rows and
  64 columns. The reference converts the weights to floats and takes the matrix product. The kernel widens the table to
  128 columns with zeros, walks the batch in 64 blocks of 256 rows, multiplies each block by the whole widened table into
  a zero accumulator, and afterwards keeps the first 64 columns.

  Over the extended reals both compute, at (r, j), the sum over the features k of the integer weight (r, k) times the
  table entry (k, j): a conversion of an integer is the integer in either float format, a change of float format is the
  identity, a product accumulated into zero is the plain sum, an entry of the product depends on its own weight row and
  table column only (so the blocks are rows of one array), and the zero columns the kernel adds lie outside the 64 columns
  it keeps. No rearrangement of sums is involved, hence nothing needs the inputs finite.

  The modules: BagSum (the sum, and that an entry depends on one row and one column), RefBag (the reference is the sum),
  BlockBag (one grid point's stored block is the sum over its block), ArrayBag (the blocks tile the padded output),
  HostEnds (the widening before and the cut after), KernelRun (the kernel's run with its result named).
-/
import proofs.«412433_j81054622810391_3_alg».proof.Defs
import proofs.«412433_j81054622810391_3_alg».proof.Proof.Gen.Kernel
import proofs.«412433_j81054622810391_3_alg».proof.Proof.Gen.Kernel.Skeleton
import proofs.«412433_j81054622810391_3_alg».proof.Proof.Gen.Kernel.Launch
import proofs.«412433_j81054622810391_3_alg».proof.Proof.Gen.Kernel.Points
import proofs.«412433_j81054622810391_3_alg».proof.Proof.Gen.Kernel.Frame
import proofs.«412433_j81054622810391_3_alg».proof.Proof.Gen.KernelIdeal
import proofs.«412433_j81054622810391_3_alg».proof.Proof.Gen.KernelIdeal.Skeleton
import proofs.«412433_j81054622810391_3_alg».proof.Proof.Gen.KernelIdeal.Launch
import proofs.«412433_j81054622810391_3_alg».proof.Proof.Gen.KernelIdeal.Points
import proofs.«412433_j81054622810391_3_alg».proof.Proof.Gen.KernelIdeal.Frame
import proofs.«412433_j81054622810391_3_alg».proof.Proof.Gen.ReferenceIdeal
import proofs.«412433_j81054622810391_3_alg».proof.Proof.Gen.Pre_finite_inputs
import proofs.«412433_j81054622810391_3_alg».proof.Proof.Gen.ReferenceIdeal.Run
import proofs.«412433_j81054622810391_3_alg».proof.Proof.Gen.ReferenceIdeal.Read
import proofs.«412433_j81054622810391_3_alg».proof.Proof.RefBag
import proofs.«412433_j81054622810391_3_alg».proof.Proof.KernelRun
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result at the bag sum of the arguments; the arguments agree, so the results do. -/
theorem algebraic : Cert.algebraic_KernelIdeal_ReferenceIdeal := by
  intro m ρ m' ρ' _ hagree
  refine ⟨fun c => BagSum.bagSum (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefBag.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
